-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S1024x512 : Shape := ⟨2, ![1024, 512]⟩
abbrev S512 : Shape := ⟨1, ![512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_

variable [Facts]

def fn_part3 {F : FTy → Type} [FloatOps F] (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  main_v53

def fn_part2 {F : FTy → Type} [FloatOps F] (main_arg7 : FVec F S1024x512 .f32) (main_arg8 : FVec F S512 .f32) (main_arg9 : FVec F S1024x512 .f32) (main_arg10 : FVec F S512 .f32) (main_v33 : IVec S_ 1) : IVec S_ 1 :=
  let main_v34 : FVec F S1024x512 .f32 := Host.absf main_arg7
  let main_cst_12 : FVec F S_ .f32 := constant S_ .f32 0x7F800000#32
  let main_v35 : FVec F S1024x512 .f32 := broadcastInDim S1024x512 ![] bcast_S_S1024x512 main_cst_12
  let main_v36 : IVec S1024x512 1 := cmpf .olt main_v34 main_v35
  let main_c_13 : IVec S_ 1 := constantI S_ 1 1#1
  let main_v37 : IVec S_ 1 := (fun x v => Host.reduce IntOp.andi x v reducesTo_S1024x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S1024x512 .f32 := Host.absf main_arg9
  let main_cst_16 : FVec F S_ .f32 := constant S_ .f32 0x7F800000#32
  let main_v45 : FVec F S1024x512 .f32 := broadcastInDim S1024x512 ![] bcast_S_S1024x512 main_cst_16
  let main_v46 : IVec S1024x512 1 := cmpf .olt main_v44 main_v45
  let main_c_17 : IVec S_ 1 := constantI S_ 1 1#1
  let main_v47 : IVec S_ 1 := (fun x v => Host.reduce IntOp.andi x v reducesTo_S1024x512_S_d0_1 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_v48 main_v49 main_v50

def fn_part1 {F : FTy → Type} [FloatOps F] (main_arg4 : FVec F S512 .f32) (main_arg5 : FVec F S1024x512 .f32) (main_arg6 : FVec F S512 .f32) (main_arg7 : FVec F S1024x512 .f32) (main_arg8 : FVec F S512 .f32) (main_arg9 : FVec F S1024x512 .f32) (main_arg10 : FVec F S512 .f32) (main_v13 : IVec S_ 1) (main_v16 : IVec S1024x512 1) : IVec S_ 1 :=
  let main_c_5 : IVec S_ 1 := constantI S_ 1 1#1
  let main_v17 : IVec S_ 1 := (fun x v => Host.reduce IntOp.andi x v reducesTo_S1024x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S1024x512 .f32 := Host.absf main_arg5
  let main_cst_8 : FVec F S_ .f32 := constant S_ .f32 0x7F800000#32
  let main_v25 : FVec F S1024x512 .f32 := broadcastInDim S1024x512 ![] bcast_S_S1024x512 main_cst_8
  let main_v26 : IVec S1024x512 1 := cmpf .olt main_v24 main_v25
  let main_c_9 : IVec S_ 1 := constantI S_ 1 1#1
  let main_v27 : IVec S_ 1 := (fun x v => Host.reduce IntOp.andi x v reducesTo_S1024x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S16384x512 .f32) (main_arg1 : FVec F S16384x512 .f32) (main_arg2 : FVec F S16384x512 .f32) (main_arg3 : FVec F S1024x512 .f32) (main_arg4 : FVec F S512 .f32) (main_arg5 : FVec F S1024x512 .f32) (main_arg6 : FVec F S512 .f32) (main_arg7 : FVec F S1024x512 .f32) (main_arg8 : FVec F S512 .f32) (main_arg9 : FVec F S1024x512 .f32) (main_arg10 : FVec F S512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S16384x512 .f32 := Host.absf main_arg2
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  let main_c_3 : IVec S_ 1 := constantI S_ 1 1#1
  let main_v12 : IVec S_ 1 := (fun x v => Host.reduce IntOp.andi x v reducesTo_S16384x512_S_d0_1 h_S_) main_v11 main_c_3
  let main_v13 : IVec S_ 1 := andi main_v8 main_v12
  let main_v14 : FVec F S1024x512 .f32 := Host.absf main_arg3
  let main_cst_4 : FVec F S_ .f32 := constant S_ .f32 0x7F800000#32
  let main_v15 : FVec F S1024x512 .f32 := broadcastInDim S1024x512 ![] bcast_S_S1024x512 main_cst_4
  let main_v16 : IVec S1024x512 1 := cmpf .olt main_v14 main_v15
  fn_part1 (F := F) main_arg4 main_arg5 main_arg6 main_arg7 main_arg8 main_arg9 main_arg10 main_v13 main_v16
-- ==== Kernel.lean ====
abbrev S16384x512 : Shape := ⟨2, ![16384, 512]⟩
abbrev S1024x512 : Shape := ⟨2, ![1024, 512]⟩
abbrev S512 : Shape := ⟨1, ![512]⟩
abbrev S1024x2048 : Shape := ⟨2, ![1024, 2048]⟩
abbrev S2048 : Shape := ⟨1, ![2048]⟩
abbrev S1x2048 : Shape := ⟨2, ![1, 2048]⟩
abbrev S512x512 : Shape := ⟨2, ![512, 512]⟩
abbrev S512x1024 : Shape := ⟨2, ![512, 1024]⟩
abbrev S512x2048 : Shape := ⟨2, ![512, 2048]⟩

abbrev nBuf : Space → Nat
  | .hbm => 17
  | .vmem => 12
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S1024x512, .f32⟩
  | .hbm, ⟨4, _⟩ => ⟨S512, .f32⟩
  | .hbm, ⟨5, _⟩ => ⟨S1024x512, .f32⟩
  | .hbm, ⟨6, _⟩ => ⟨S512, .f32⟩
  | .hbm, ⟨7, _⟩ => ⟨S1024x512, .f32⟩
  | .hbm, ⟨8, _⟩ => ⟨S512, .f32⟩
  | .hbm, ⟨9, _⟩ => ⟨S1024x512, .f32⟩
  | .hbm, ⟨10, _⟩ => ⟨S512, .f32⟩
  | .hbm, ⟨11, _⟩ => ⟨S1024x2048, .f32⟩
  | .hbm, ⟨12, _⟩ => ⟨S2048, .f32⟩
  | .hbm, ⟨13, _⟩ => ⟨S1024x2048, .bf16⟩
  | .hbm, ⟨14, _⟩ => ⟨S1x2048, .f32⟩
  | .hbm, ⟨15, _⟩ => ⟨S16384x512, .f32⟩
  | .hbm, ⟨16, _⟩ => ⟨S16384x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1024x2048, .bf16⟩
  | .local _ .vmem, ⟨7, _⟩ => ⟨S1x2048, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  concatenates_S1024x512_S1024x512_S1024x512_S1024x512_S1024x2048_d1 : Shape.Concatenates [S1024x512, S1024x512, S1024x512, S1024x512] S1024x2048 1
  concatenates_S512_S512_S512_S512_S2048_d0 : Shape.Concatenates [S512, S512, S512, S512] S2048 0
  bitsLt_bf16_f32 : FTy.bits .bf16 < FTy.bits .f32
  shapeCasts_S2048_S1x2048 : S2048.ShapeCasts S1x2048
  inb_S512x512_S512x512_0_0 : ∀ a, (![0, 0] : Fin 2 → Nat) a + S512x512.size a ≤ S512x512.size a
  h_S512x512 : 0 < S512x512.numel
  concatenates_S512x512_S512x512_S512x1024_d1 : Shape.Concatenates [S512x512, S512x512] S512x1024 1
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  slices_S512x2048_o0_0_S512x512 : S512x2048.Slices ![0, 0] S512x512
  slices_S512x2048_o0_512_S512x512 : S512x2048.Slices ![0, 512] S512x512
  slices_S512x2048_o0_1024_S512x512 : S512x2048.Slices ![0, 1024] S512x512
  slices_S512x2048_o0_1536_S512x512 : S512x2048.Slices ![0, 1536] S512x512
  dot_S512x1024_S1024x2048_S512x2048_1_0_0_1_n_n_wf : DotDims.WF S512x1024 S1024x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S16384x512.size a
  hwx0_0 : ∀ i : grid0.Coords, EltTy.bits .f32 = 32 ∨ (Rect.block (s := S16384x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S16384x512.size a
  hwx0_1 : ∀ i : grid0.Coords, EltTy.bits .f32 = 32 ∨ (Rect.block (s := S16384x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S16384x512.size a
  hwx0_2 : ∀ i : grid0.Coords, EltTy.bits .f32 = 32 ∨ (Rect.block (s := S16384x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S1024x2048.size a
  hwx0_3 : ∀ i : grid0.Coords, EltTy.bits .bf16 = 32 ∨ (Rect.block (s := S1024x2048) S1024x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S16384x512.size a
  hwx0_5 : ∀ i : grid0.Coords, EltTy.bits .f32 = 32 ∨ (Rect.block (s := S16384x512) S512x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S16384x512.size a
  hwx0_6 : ∀ i : grid0.Coords, EltTy.bits .f32 = 32 ∨ (Rect.block (s := S16384x512) S512x512.size (cc0_transform_6 i) (hinb0_6 i)).WholeWords (EltTy.packing .f32)

variable [Facts₀]

def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4_0) S512x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_1) S512x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16384x512 : Shape := ⟨2, ![16384, 512]⟩
abbrev S1024x512 : Shape := ⟨2, ![1024, 512]⟩
abbrev S512 : Shape := ⟨1, ![512]⟩
abbrev S16384x1024 : Shape := ⟨2, ![16384, 1024]⟩
abbrev S1024x2048 : Shape := ⟨2, ![1024, 2048]⟩
abbrev S2048 : Shape := ⟨1, ![2048]⟩
abbrev S16384x2048 : Shape := ⟨2, ![16384, 2048]⟩
abbrev S1x2048 : Shape := ⟨2, ![1, 2048]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S1024x512, .f32⟩
  | .hbm, ⟨4, _⟩ => ⟨S512, .f32⟩
  | .hbm, ⟨5, _⟩ => ⟨S1024x512, .f32⟩
  | .hbm, ⟨6, _⟩ => ⟨S512, .f32⟩
  | .hbm, ⟨7, _⟩ => ⟨S1024x512, .f32⟩
  | .hbm, ⟨8, _⟩ => ⟨S512, .f32⟩
  | .hbm, ⟨9, _⟩ => ⟨S1024x512, .f32⟩
  | .hbm, ⟨10, _⟩ => ⟨S512, .f32⟩
  | .hbm, ⟨11, _⟩ => ⟨S16384x1024, .f32⟩
  | .hbm, ⟨12, _⟩ => ⟨S1024x2048, .f32⟩
  | .hbm, ⟨13, _⟩ => ⟨S2048, .f32⟩
  | .hbm, ⟨14, _⟩ => ⟨S16384x2048, .f32⟩
  | .hbm, ⟨15, _⟩ => ⟨S1x2048, .f32⟩
  | .hbm, ⟨16, _⟩ => ⟨S16384x2048, .f32⟩
  | .hbm, ⟨17, _⟩ => ⟨S16384x2048, .f32⟩
  | .hbm, ⟨18, _⟩ => ⟨S16384x512, .f32⟩
  | .hbm, ⟨19, _⟩ => ⟨S16384x512, .f32⟩
  | .hbm, ⟨20, _⟩ => ⟨S16384x512, .f32⟩
  | .hbm, ⟨21, _⟩ => ⟨S16384x512, .f32⟩
  | .hbm, ⟨22, _⟩ => ⟨S16384x512, .f32⟩
  | .hbm, ⟨23, _⟩ => ⟨S16384x512, .f32⟩
  | .hbm, ⟨24, _⟩ => ⟨S_, .f32⟩
  | .hbm, ⟨25, _⟩ => ⟨S16384x512, .f32⟩
  | .hbm, ⟨26, _⟩ => ⟨S16384x512, .f32⟩
  | .hbm, ⟨27, _⟩ => ⟨S_, .f32⟩
  | .hbm, ⟨28, _⟩ => ⟨S16384x512, .f32⟩
  | .hbm, ⟨29, _⟩ => ⟨S16384x512, .f32⟩
  | .hbm, ⟨30, _⟩ => ⟨S16384x512, .f32⟩
  | .hbm, ⟨31, _⟩ => ⟨S16384x512, .f32⟩
  | .hbm, ⟨32, _⟩ => ⟨S_, .f32⟩
  | .hbm, ⟨33, _⟩ => ⟨S16384x512, .f32⟩
  | .hbm, ⟨34, _⟩ => ⟨S16384x512, .f32⟩
  | .hbm, ⟨35, _⟩ => ⟨S_, .f32⟩
  | .hbm, ⟨36, _⟩ => ⟨S16384x512, .f32⟩
  | .hbm, ⟨37, _⟩ => ⟨S16384x512, .f32⟩
  | .hbm, ⟨38, _⟩ => ⟨S16384x512, .f32⟩
  | .hbm, ⟨39, _⟩ => ⟨S16384x512, .f32⟩
  | .hbm, ⟨40, _⟩ => ⟨S_, .f32⟩
  | .hbm, ⟨41, _⟩ => ⟨S16384x512, .f32⟩
  | .hbm, ⟨42, _⟩ => ⟨S16384x512, .f32⟩
  | .hbm, ⟨43, _⟩ => ⟨S_, .f32⟩
  | .hbm, ⟨44, _⟩ => ⟨S16384x512, .f32⟩
  | .hbm, ⟨45, _⟩ => ⟨S16384x512, .f32⟩
  | .hbm, ⟨46, _⟩ => ⟨S16384x512, .f32⟩
  | .hbm, ⟨47, _⟩ => ⟨S16384x512, .f32⟩
  | .hbm, ⟨48, _⟩ => ⟨S16384x512, .f32⟩
  | .hbm, ⟨49, _⟩ => ⟨S16384x512, .f32⟩
  | .hbm, ⟨50, _⟩ => ⟨S16384x512, .f32⟩
  | .hbm, ⟨51, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩

abbrev nD : Nat := 1
abbrev τ : Topo := Topo.v7x

variable {F : FTy → Type} [FloatOps F]

class Facts₀ : Prop where
  concatenates_S16384x512_S16384x512_S16384x1024_d1 : Shape.Concatenates [S16384x512, S16384x512] S16384x1024 1
  concatenates_S1024x512_S1024x512_S1024x512_S1024x512_S1024x2048_d1 : Shape.Concatenates [S1024x512, S1024x512, S1024x512, S1024x512] S1024x2048 1
  concatenates_S512_S512_S512_S512_S2048_d0 : Shape.Concatenates [S512, S512, S512, S512] S2048 0
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  slices_S16384x2048_S16384x512_0_0 : S16384x2048.Slices ![0, 0] S16384x512
  slices_S16384x2048_S16384x512_0_512 : S16384x2048.Slices ![0, 512] S16384x512
  slices_S16384x2048_S16384x512_0_1024 : S16384x2048.Slices ![0, 1024] S16384x512
  slices_S16384x2048_S16384x512_0_1536 : S16384x2048.Slices ![0, 1536] S16384x512
  bcast_S_S16384x512 : S_.BroadcastsInDim S16384x512 (![] : Fin 0 → Fin S16384x512.rank)
  dot_S16384x1024_S1024x2048_S16384x2048_1_0_0_1_n_n_wf : DotDims.WF S16384x1024 S1024x2048 S16384x2048 [1] [0] [0] [1] [] []

variable [Facts₀]

def dot_S16384x1024_S1024x2048_S16384x2048_1_0_0_1_n_n : DotDims S16384x1024 S1024x2048 S16384x2048 where
  lhsContracting := [1]
  rhsContracting := [0]
  lhsNonContracting := [0]
  rhsNonContracting := [1]
  lhsBatch := []
  rhsBatch := []
  wf := dot_S16384x1024_S1024x2048_S16384x2048_1_0_0_1_n_n_wf

class Facts : Prop extends Facts₀ where

variable [Facts]
-- ==== Proof.KbEntry.lean ====
/-
  The LSTM cell's launch, up to its one pipelined region.

  @main first joins the four gate weight matrices side by side into one 1024 × 2048 matrix and the four bias
  vectors into one of length 2048, narrows the matrix to bf16 and views the bias as a 1 × 2048 row; then it
  enters the region, a grid of 32 points, point t working on rows 512 t … 512 t + 511 of x, h and c.
  Here: the buffers' contents when the region is entered (the four host lines folded over the launch memory),
  that none of those lines writes an argument array, each window's block at a grid point, that an input
  window's staging buffer holds its block at every point whether or not it was fetched there (the weight
  matrix and the bias row are fetched once, at point 0, and their block index never moves), and how the
  "arguments unchanged" post follows from a run of the region.
-/
import proofs.«154870_j82669530514116_1_alg».proof.Proof.Gen.Kernel.Launch
import proofs.«154870_j82669530514116_1_alg».proof.Proof.Gen.Kernel.Skeleton
import proofs.«154870_j82669530514116_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Lstm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the two concatenations, the
    narrowing of the joined weights and the reshape of the joined bias. -/
abbrev V (c : Dev nD) (b : Ref sig .tc) : Buf (Elt F) ((c : Thread nD τ).loc b) := StableHlo.after hostOps0 (fun b => m (c, b)) b

/-- None of the four host lines allocates. -/
theorem hostOps0_fresh : (hostOps0 : List (HloOp τ sig (Elt F))).Forall fun op => op.fresh = ∅ := by
  simp only [List.Forall]; repeat' constructor

/-- @main is the four host lines, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- None of the four host lines writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- None of the four host lines writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- None of the four host lines writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- None of the four host lines writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- None of the four host lines writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- None of the four host lines writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- None of the four host lines writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- None of the four host lines writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- None of the four host lines writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- None of the four host lines writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- None of the four host lines writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each of the five input windows (x, h, c: rows 512 t …; the weights and the bias row: the whole array at
    every point) holds its block in its current staging buffer at every point, for any proof data whose
    arrays are the region-entry contents and whose body leaves the inputs as it found them. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged -/

/-- From a run of the region to the library's post (the staged arrays at what the proof data compute, every
    other unscoped buffer as at the region's entry) to "the eleven arguments end as launched": x, h and c
    are staged inputs, never written back; the eight weight and bias arguments are not windows at all. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

/-! ## The staging memrefs the body is called with -/

/-- One staging buffer of each output window, through which its contents are stated. -/
abbrev VO0_5 : View sig .tc .vmem S512x512 .f32 := (Memref.whole cc0_stg5_0 : Memref sig .tc .vmem S512x512 .f32).view
abbrev VO0_6 : View sig .tc .vmem S512x512 .f32 := (Memref.whole cc0_stg6_0 : Memref sig .tc .vmem S512x512 .f32).view
/-- Each window's current staging memref at point `t`, as the pipeline passes it, and that it is a whole buffer. -/
abbrev ms0_0 (t : Fin cfg0.N) : Memref sig .tc .vmem S512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x2048 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x512 .f32 := win0_6.stage (cfg0.slots t 6)
abbrev hs0_6 (t : Fin cfg0.N) : (ms0_6 t).IsWhole := hstage0_6 ((cfg0.slots t 6).cast nbuf0_6)

end Cert.Kernel.Lstm

end
-- ==== Proof.KbRun.lean ====
/-
  One grid point of the LSTM cell, run symbolically on whole staging buffers.

  The body loads its x, h and c blocks (512 × 512 each), the joined weights (1024 × 2048, bf16) and the bias
  row, computes the four gates and the two results, loads each output buffer once (the loaded value is
  never used) and then stores a full 512 × 512 block into each. So from the five input buffers at their
  contents and the two output buffers at anything, the body runs to the end, gives the inputs back as they
  were, and leaves in each output buffer one piece covering the whole block; the two piece lists are what
  the symbolic run finds.
-/
import proofs.«154870_j82669530514116_1_alg».proof.Proof.KbEntry

set_option maxRecDepth 16384

noncomputable section

namespace Cert.Kernel.Lstm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body leaves in the h-output's and the c-output's staging buffers, with the proof that on
    whole staging memrefs the body runs to the continuation holding the inputs as they were and each output
    buffer with its pieces written. -/
noncomputable def kernelRun0_A (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S512x512 .f32) (harg6 : arg6.IsWhole) (arg7 : Memref sig .tc .vmem S512x512 .f32) (harg7 : arg7.IsWhole)
    (x0 x1 x2 : Vec F S512x512 .f32) (x3 : Vec F S1024x2048 .bf16) (x4 : Vec F S1x2048 .f32) :
    Σ' (L5 : List (View.Piece (Elt F) S512x512 .f32)), { L6 : List (View.Piece (Elt F) S512x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)) -∗ K ⟨⟩))
          ⊢ wp frame (wpE (defs₀ (F := F)) Variants.none c none) E (cc0__lstm_kernel i arg1 harg1 arg2 harg2 arg3 harg3 arg4 harg4 arg5 harg5 arg6 harg6 arg7 harg7) K } := by
  refine ⟨?_, ?_, fun E K => ?run⟩
  case run =>
    simp only [cc0__lstm_kernel_eq_skeleton]; unfold cc0__lstm_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg1.eq_unread hf0; obtain rfl := harg2.eq_unread hf1; obtain rfl := harg3.eq_unread hf2
    obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; iexact H5
    iexists _; iexact H6

end Cert.Kernel.Lstm

end
-- ==== Proof.KbFrame.lean ====
/-
  The LSTM cell's region, launched: every execution ends, nothing faults, the arguments end as launched.

  At each of the 32 grid points the body finds the x, h and c blocks of rows 512 t … 512 t + 511 and the whole
  joined weight matrix and bias row in its input buffers, and leaves one full 512 × 512 block in each output
  buffer (new h, new c), which the pipeline writes back to rows 512 t … of the two results. The proof data say
  exactly that: an input buffer holds its block after the body as before it, an output buffer holds what the
  symbolic run of the body found, read back through the block. Nothing is carried from point to point.
-/
import proofs.«154870_j82669530514116_1_alg».proof.Proof.KbRun

set_option maxRecDepth 16384

noncomputable section

namespace Cert.Kernel.Lstm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two output buffers hold after the body -/

/-- The one piece the run leaves in the h-output's buffer is the whole 512 × 512 block, so it covers it. -/
theorem cover0_A_5 (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S512x512 .f32) (harg6 : arg6.IsWhole) (arg7 : Memref sig .tc .vmem S512x512 .f32) (harg7 : arg7.IsWhole)
    (x0 x1 x2 : Vec F S512x512 .f32) (x3 : Vec F S1024x2048 .bf16) (x4 : Vec F S1x2048 .f32) (y : S512x512.Idx) :
    ∃ pc ∈ (kernelRun0_A c i arg1 harg1 arg2 harg2 arg3 harg3 arg4 harg4 arg5 harg5 arg6 harg6 arg7 harg7 x0 x1 x2 x3 x4).1, y ∈ pc.1.set :=
  View.cover_of_tiledL (kernelRun0_A c i arg1 harg1 arg2 harg2 arg3 harg3 arg4 harg4 arg5 harg5 arg6 harg6 arg7 harg7 x0 x1 x2 x3 x4).1 S512x512.size (by sl_kernel_rfl) y
/-- The same for the c-output's buffer. -/
theorem cover0_A_6 (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S512x512 .f32) (harg6 : arg6.IsWhole) (arg7 : Memref sig .tc .vmem S512x512 .f32) (harg7 : arg7.IsWhole)
    (x0 x1 x2 : Vec F S512x512 .f32) (x3 : Vec F S1024x2048 .bf16) (x4 : Vec F S1x2048 .f32) (y : S512x512.Idx) :
    ∃ pc ∈ (kernelRun0_A c i arg1 harg1 arg2 harg2 arg3 harg3 arg4 harg4 arg5 harg5 arg6 harg6 arg7 harg7 x0 x1 x2 x3 x4).2.1, y ∈ pc.1.set :=
  View.cover_of_tiledL (kernelRun0_A c i arg1 harg1 arg2 harg2 arg3 harg3 arg4 harg4 arg5 harg5 arg6 harg6 arg7 harg7 x0 x1 x2 x3 x4).2.1 S512x512.size (by sl_kernel_rfl) y

/-- What the run leaves in the h-output's staging buffer: its pieces read back. -/
def out0_A_5 (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S512x512 .f32) (harg6 : arg6.IsWhole) (arg7 : Memref sig .tc .vmem S512x512 .f32) (harg7 : arg7.IsWhole)
    (x0 x1 x2 : Vec F S512x512 .f32) (x3 : Vec F S1024x2048 .bf16) (x4 : Vec F S1x2048 .f32) : Vec F S512x512 .f32 :=
  VO0_5.read (Elt F) (VO0_5.writes (Elt F) VO0_5.junk (kernelRun0_A c i arg1 harg1 arg2 harg2 arg3 harg3 arg4 harg4 arg5 harg5 arg6 harg6 arg7 harg7 x0 x1 x2 x3 x4).1)
/-- What the run leaves in the c-output's staging buffer: its pieces read back. -/
def out0_A_6 (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S512x512 .f32) (harg6 : arg6.IsWhole) (arg7 : Memref sig .tc .vmem S512x512 .f32) (harg7 : arg7.IsWhole)
    (x0 x1 x2 : Vec F S512x512 .f32) (x3 : Vec F S1024x2048 .bf16) (x4 : Vec F S1x2048 .f32) : Vec F S512x512 .f32 :=
  VO0_6.read (Elt F) (VO0_6.writes (Elt F) VO0_6.junk (kernelRun0_A c i arg1 harg1 arg2 harg2 arg3 harg3 arg4 harg4 arg5 harg5 arg6 harg6 arg7 harg7 x0 x1 x2 x3 x4).2.1)

/-- New h for rows 512 t …, as the body leaves it at point `t`: the run at the point's memrefs and input blocks. -/
def hOutAt (c : Dev nD) (t : Fin cfg0.N) : Vec F S512x512 .f32 :=
  out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t)
/-- New c for rows 512 t …, likewise. -/
def cOutAt (c : Dev nD) (t : Fin cfg0.N) : Vec F S512x512 .f32 :=
  out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t)

/-! ## The pipeline's proof data -/

/-- On core `c`: the arrays as the region finds them; after the body at point `t` each input buffer at its
    block and the two output buffers at `hOutAt`, `cOutAt`; the invariant the scoped rest and the generator
    register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => hOutAt m c t
    | ⟨6, _⟩ => cOutAt m c t
  Φ _ := Pipeline.ΦA spec0 c
  q _ := fullShare
  owed _ := 0

/-- The proof data's arrays are the region-entry contents (by projection: the fold over the host lines is never opened). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = hOutAt m c t := by dsimp only [dats]
theorem after0_6 (c : Dev nD) (t : Fin cfg0.N) : (dats m 0 c).after 6 t = cOutAt m c t := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, the seven windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

/-- The body at any point: the input buffers hold their blocks, so the run applies; the invariant passes
    through unread; the core owes nothing throughout; each output buffer, covered by its one piece, reads
    back as the run's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  unfold hOutAt cOutAt
  unfold out0_A_5 out0_A_6
  iintro ⟨HΦ, Ho, ⟨%d0, H0⟩, ⟨%d1, H1⟩, ⟨%d2, H2⟩, ⟨%d3, H3⟩, ⟨%d4, H4⟩, ⟨%d5, H5⟩, ⟨%d6, H6⟩⟩
  iapply ((kernelRun0_A c (grid0.coords t) _ _ _ _ _ _ _ _ _ _ _ _ _ _ (iblk m c 0 t) (iblk m c 1 t) (iblk m c 2 t) (iblk m c 3 t) (iblk m c 4 t)).2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, ⟨%e5, H5⟩, ⟨%e6, H6⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover0_A_5 c _ _ _ _ _ _ _ _ _ _ _ _ _ _ _ _ _ _ _ _)
  unfold owns; iexists _; isplitr
  swap; · iexact H6
  ipureintro; exact View.read_writes_of_cover _ _ _ _ _ (cover0_A_6 c _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state
    has the two result arrays at what the proof data compute block by block, the staged inputs at their
    entry contents, and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs to the end without a fault and its eleven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.Kernel.Lstm

end
-- ==== Proof.KiEntry.lean ====
/-
  The LSTM cell's launch, up to its one pipelined region.

  @main first joins the four gate weight matrices side by side into one 1024 × 2048 matrix and the four bias
  vectors into one of length 2048, narrows the matrix to bf16 and views the bias as a 1 × 2048 row; then it
  enters the region, a grid of 32 points, point t working on rows 512 t … 512 t + 511 of x, h and c.
  Here: the buffers' contents when the region is entered (the four host lines folded over the launch memory),
  that none of those lines writes an argument array, each window's block at a grid point, that an input
  window's staging buffer holds its block at every point whether or not it was fetched there (the weight
  matrix and the bias row are fetched once, at point 0, and their block index never moves), and how the
  "arguments unchanged" post follows from a run of the region.
-/
import proofs.«154870_j82669530514116_1_alg».proof.Proof.Gen.KernelIdeal.Launch
import proofs.«154870_j82669530514116_1_alg».proof.Proof.Gen.KernelIdeal.Skeleton
import proofs.«154870_j82669530514116_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Lstm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the two concatenations, the
    narrowing of the joined weights and the reshape of the joined bias. -/
abbrev V (c : Dev nD) (b : Ref sig .tc) : Buf (Elt F) ((c : Thread nD τ).loc b) := StableHlo.after hostOps0 (fun b => m (c, b)) b

/-- None of the four host lines allocates. -/
theorem hostOps0_fresh : (hostOps0 : List (HloOp τ sig (Elt F))).Forall fun op => op.fresh = ∅ := by
  simp only [List.Forall]; repeat' constructor

/-- @main is the four host lines, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- None of the four host lines writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- None of the four host lines writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- None of the four host lines writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- None of the four host lines writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- None of the four host lines writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- None of the four host lines writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- None of the four host lines writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- None of the four host lines writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- None of the four host lines writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- None of the four host lines writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- None of the four host lines writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each of the five input windows (x, h, c: rows 512 t …; the weights and the bias row: the whole array at
    every point) holds its block in its current staging buffer at every point, for any proof data whose
    arrays are the region-entry contents and whose body leaves the inputs as it found them. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged -/

/-- From a run of the region to the library's post (the staged arrays at what the proof data compute, every
    other unscoped buffer as at the region's entry) to "the eleven arguments end as launched": x, h and c
    are staged inputs, never written back; the eight weight and bias arguments are not windows at all. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

/-! ## The staging memrefs the body is called with -/

/-- One staging buffer of each output window, through which its contents are stated. -/
abbrev VO0_5 : View sig .tc .vmem S512x512 .f32 := (Memref.whole cc0_stg5_0 : Memref sig .tc .vmem S512x512 .f32).view
abbrev VO0_6 : View sig .tc .vmem S512x512 .f32 := (Memref.whole cc0_stg6_0 : Memref sig .tc .vmem S512x512 .f32).view
/-- Each window's current staging memref at point `t`, as the pipeline passes it, and that it is a whole buffer. -/
abbrev ms0_0 (t : Fin cfg0.N) : Memref sig .tc .vmem S512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x2048 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x512 .f32 := win0_6.stage (cfg0.slots t 6)
abbrev hs0_6 (t : Fin cfg0.N) : (ms0_6 t).IsWhole := hstage0_6 ((cfg0.slots t 6).cast nbuf0_6)

end Cert.KernelIdeal.Lstm

end
-- ==== Proof.KiRun.lean ====
/-
  One grid point of the LSTM cell, run symbolically on whole staging buffers.

  The body loads its x, h and c blocks (512 × 512 each), the joined weights (1024 × 2048, bf16) and the bias
  row, computes the four gates and the two results, loads each output buffer once (the loaded value is
  never used) and then stores a full 512 × 512 block into each. So from the five input buffers at their
  contents and the two output buffers at anything, the body runs to the end, gives the inputs back as they
  were, and leaves in each output buffer one piece covering the whole block; the two piece lists are what
  the symbolic run finds.
-/
import proofs.«154870_j82669530514116_1_alg».proof.Proof.KiEntry

set_option maxRecDepth 16384

noncomputable section

namespace Cert.KernelIdeal.Lstm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body leaves in the h-output's and the c-output's staging buffers, with the proof that on
    whole staging memrefs the body runs to the continuation holding the inputs as they were and each output
    buffer with its pieces written. -/
noncomputable def kernelRun0_A (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S512x512 .f32) (harg6 : arg6.IsWhole) (arg7 : Memref sig .tc .vmem S512x512 .f32) (harg7 : arg7.IsWhole)
    (x0 x1 x2 : Vec F S512x512 .f32) (x3 : Vec F S1024x2048 .bf16) (x4 : Vec F S1x2048 .f32) :
    Σ' (L5 : List (View.Piece (Elt F) S512x512 .f32)), { L6 : List (View.Piece (Elt F) S512x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)) -∗ K ⟨⟩))
          ⊢ wp frame (wpE (defs₀ (F := F)) Variants.none c none) E (cc0__lstm_kernel i arg1 harg1 arg2 harg2 arg3 harg3 arg4 harg4 arg5 harg5 arg6 harg6 arg7 harg7) K } := by
  refine ⟨?_, ?_, fun E K => ?run⟩
  case run =>
    simp only [cc0__lstm_kernel_eq_skeleton]; unfold cc0__lstm_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg1.eq_unread hf0; obtain rfl := harg2.eq_unread hf1; obtain rfl := harg3.eq_unread hf2
    obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; iexact H5
    iexists _; iexact H6

end Cert.KernelIdeal.Lstm

end
-- ==== Proof.KiFrame.lean ====
/-
  The LSTM cell's region, launched: every execution ends, nothing faults, the arguments end as launched.

  At each of the 32 grid points the body finds the x, h and c blocks of rows 512 t … 512 t + 511 and the whole
  joined weight matrix and bias row in its input buffers, and leaves one full 512 × 512 block in each output
  buffer (new h, new c), which the pipeline writes back to rows 512 t … of the two results. The proof data say
  exactly that: an input buffer holds its block after the body as before it, an output buffer holds what the
  symbolic run of the body found, read back through the block. Nothing is carried from point to point.
-/
import proofs.«154870_j82669530514116_1_alg».proof.Proof.KiRun

set_option maxRecDepth 16384

noncomputable section

namespace Cert.KernelIdeal.Lstm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two output buffers hold after the body -/

/-- The one piece the run leaves in the h-output's buffer is the whole 512 × 512 block, so it covers it. -/
theorem cover0_A_5 (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S512x512 .f32) (harg6 : arg6.IsWhole) (arg7 : Memref sig .tc .vmem S512x512 .f32) (harg7 : arg7.IsWhole)
    (x0 x1 x2 : Vec F S512x512 .f32) (x3 : Vec F S1024x2048 .bf16) (x4 : Vec F S1x2048 .f32) (y : S512x512.Idx) :
    ∃ pc ∈ (kernelRun0_A c i arg1 harg1 arg2 harg2 arg3 harg3 arg4 harg4 arg5 harg5 arg6 harg6 arg7 harg7 x0 x1 x2 x3 x4).1, y ∈ pc.1.set :=
  View.cover_of_tiledL (kernelRun0_A c i arg1 harg1 arg2 harg2 arg3 harg3 arg4 harg4 arg5 harg5 arg6 harg6 arg7 harg7 x0 x1 x2 x3 x4).1 S512x512.size (by sl_kernel_rfl) y
/-- The same for the c-output's buffer. -/
theorem cover0_A_6 (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S512x512 .f32) (harg6 : arg6.IsWhole) (arg7 : Memref sig .tc .vmem S512x512 .f32) (harg7 : arg7.IsWhole)
    (x0 x1 x2 : Vec F S512x512 .f32) (x3 : Vec F S1024x2048 .bf16) (x4 : Vec F S1x2048 .f32) (y : S512x512.Idx) :
    ∃ pc ∈ (kernelRun0_A c i arg1 harg1 arg2 harg2 arg3 harg3 arg4 harg4 arg5 harg5 arg6 harg6 arg7 harg7 x0 x1 x2 x3 x4).2.1, y ∈ pc.1.set :=
  View.cover_of_tiledL (kernelRun0_A c i arg1 harg1 arg2 harg2 arg3 harg3 arg4 harg4 arg5 harg5 arg6 harg6 arg7 harg7 x0 x1 x2 x3 x4).2.1 S512x512.size (by sl_kernel_rfl) y

/-- What the run leaves in the h-output's staging buffer: its pieces read back. -/
def out0_A_5 (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S512x512 .f32) (harg6 : arg6.IsWhole) (arg7 : Memref sig .tc .vmem S512x512 .f32) (harg7 : arg7.IsWhole)
    (x0 x1 x2 : Vec F S512x512 .f32) (x3 : Vec F S1024x2048 .bf16) (x4 : Vec F S1x2048 .f32) : Vec F S512x512 .f32 :=
  VO0_5.read (Elt F) (VO0_5.writes (Elt F) VO0_5.junk (kernelRun0_A c i arg1 harg1 arg2 harg2 arg3 harg3 arg4 harg4 arg5 harg5 arg6 harg6 arg7 harg7 x0 x1 x2 x3 x4).1)
/-- What the run leaves in the c-output's staging buffer: its pieces read back. -/
def out0_A_6 (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S512x512 .f32) (harg6 : arg6.IsWhole) (arg7 : Memref sig .tc .vmem S512x512 .f32) (harg7 : arg7.IsWhole)
    (x0 x1 x2 : Vec F S512x512 .f32) (x3 : Vec F S1024x2048 .bf16) (x4 : Vec F S1x2048 .f32) : Vec F S512x512 .f32 :=
  VO0_6.read (Elt F) (VO0_6.writes (Elt F) VO0_6.junk (kernelRun0_A c i arg1 harg1 arg2 harg2 arg3 harg3 arg4 harg4 arg5 harg5 arg6 harg6 arg7 harg7 x0 x1 x2 x3 x4).2.1)

/-- New h for rows 512 t …, as the body leaves it at point `t`: the run at the point's memrefs and input blocks. -/
def hOutAt (c : Dev nD) (t : Fin cfg0.N) : Vec F S512x512 .f32 :=
  out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t)
/-- New c for rows 512 t …, likewise. -/
def cOutAt (c : Dev nD) (t : Fin cfg0.N) : Vec F S512x512 .f32 :=
  out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t)

/-! ## The pipeline's proof data -/

/-- On core `c`: the arrays as the region finds them; after the body at point `t` each input buffer at its
    block and the two output buffers at `hOutAt`, `cOutAt`; the invariant the scoped rest and the generator
    register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => hOutAt m c t
    | ⟨6, _⟩ => cOutAt m c t
  Φ _ := Pipeline.ΦA spec0 c
  q _ := fullShare
  owed _ := 0

/-- The proof data's arrays are the region-entry contents (by projection: the fold over the host lines is never opened). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = hOutAt m c t := by dsimp only [dats]
theorem after0_6 (c : Dev nD) (t : Fin cfg0.N) : (dats m 0 c).after 6 t = cOutAt m c t := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, the seven windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

/-- The body at any point: the input buffers hold their blocks, so the run applies; the invariant passes
    through unread; the core owes nothing throughout; each output buffer, covered by its one piece, reads
    back as the run's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  unfold hOutAt cOutAt
  unfold out0_A_5 out0_A_6
  iintro ⟨HΦ, Ho, ⟨%d0, H0⟩, ⟨%d1, H1⟩, ⟨%d2, H2⟩, ⟨%d3, H3⟩, ⟨%d4, H4⟩, ⟨%d5, H5⟩, ⟨%d6, H6⟩⟩
  iapply ((kernelRun0_A c (grid0.coords t) _ _ _ _ _ _ _ _ _ _ _ _ _ _ (iblk m c 0 t) (iblk m c 1 t) (iblk m c 2 t) (iblk m c 3 t) (iblk m c 4 t)).2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, ⟨%e5, H5⟩, ⟨%e6, H6⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover0_A_5 c _ _ _ _ _ _ _ _ _ _ _ _ _ _ _ _ _ _ _ _)
  unfold owns; iexists _; isplitr
  swap; · iexact H6
  ipureintro; exact View.read_writes_of_cover _ _ _ _ _ (cover0_A_6 c _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state
    has the two result arrays at what the proof data compute block by block, the staged inputs at their
    entry contents, and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs to the end without a fault and its eleven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.KernelIdeal.Lstm

end
-- ==== Proof.CellGate.lean ====
/-
  The four gates' pre-activations: one row of the kernel's block against the same row of the reference.

  Both programs form, for a batch row r and a gate column j (0 ≤ j < 2048),
      g(r, j) = Σ_{k < 1024} [x | h](r, k) · W(k, j) + b(j),
  where [x | h] is x and h side by side, W the four weight matrices side by side and b the four biases end to
  end. The kernel does it on a block of 512 rows (row p of block t is row 512 t + p), with the product taken by
  the matrix unit into a zero accumulator and the bias row broadcast down the block; the reference on all
  16384 rows at once by a host contraction. Over the extended reals both are the same sum, term by term; the
  narrowing of the operands to bf16 changes nothing there.
-/
import proofs.«154870_j82669530514116_1_alg».proof.Proof.Gen.KernelIdeal.Skeleton
import proofs.«154870_j82669530514116_1_alg».proof.Proof.Gen.ReferenceIdeal.Read
import Idealize.ShloMosaic.Lib.ValueIdx
import Idealize.ShloMosaic.Lib.Pipeline.Value
import Idealize.ShloMosaic.PureOps.Ideal.Laws

noncomputable section

namespace Cert.Lstm

open Idealize.ShloMosaic Idealize.ShloMosaic.ValueIdx
open scoped BigOperators

/-- Row `p` of the block at grid point `t`, as a row of the whole batch. -/
abbrev rowOf (t : Fin 32) (p : Fin 512) : Fin 16384 := ⟨512 * t.val + p.val, by have := t.isLt; have := p.isLt; omega⟩

/-! ## The matrix unit's product into a zero accumulator, entry by entry -/

theorem klhs_0 (i : Cert.KernelIdeal.S512x2048.Idx) (q : Cert.KernelIdeal.dot_S512x1024_S1024x2048_S512x2048_1_0_0_1_n_n.contr.Idx) :
    (Cert.KernelIdeal.dot_S512x1024_S1024x2048_S512x2048_1_0_0_1_n_n.lhsIdx i q 0).val = (i 0).val := by
  unfold DotDims.lhsIdx
  rw [dif_neg (show ¬(0 : Fin Cert.KernelIdeal.S512x1024.rank) ∈ Cert.KernelIdeal.dot_S512x1024_S1024x2048_S512x2048_1_0_0_1_n_n.lhsBatch by decide), dif_pos (show (0 : Fin Cert.KernelIdeal.S512x1024.rank) ∈ Cert.KernelIdeal.dot_S512x1024_S1024x2048_S512x2048_1_0_0_1_n_n.lhsNonContracting by decide)]
  rfl
theorem klhs_1 (i : Cert.KernelIdeal.S512x2048.Idx) (q : Cert.KernelIdeal.dot_S512x1024_S1024x2048_S512x2048_1_0_0_1_n_n.contr.Idx) :
    (Cert.KernelIdeal.dot_S512x1024_S1024x2048_S512x2048_1_0_0_1_n_n.lhsIdx i q 1).val = (q ⟨0, by decide⟩).val :=
  Cert.KernelIdeal.dot_S512x1024_S1024x2048_S512x2048_1_0_0_1_n_n.lhsIdx_val_of_single rfl i q
theorem krhs_0 (i : Cert.KernelIdeal.S512x2048.Idx) (q : Cert.KernelIdeal.dot_S512x1024_S1024x2048_S512x2048_1_0_0_1_n_n.contr.Idx) :
    (Cert.KernelIdeal.dot_S512x1024_S1024x2048_S512x2048_1_0_0_1_n_n.rhsIdx i q 0).val = (q ⟨0, by decide⟩).val :=
  Cert.KernelIdeal.dot_S512x1024_S1024x2048_S512x2048_1_0_0_1_n_n.rhsIdx_val_of_single rfl i q
theorem krhs_1 (i : Cert.KernelIdeal.S512x2048.Idx) (q : Cert.KernelIdeal.dot_S512x1024_S1024x2048_S512x2048_1_0_0_1_n_n.contr.Idx) :
    (Cert.KernelIdeal.dot_S512x1024_S1024x2048_S512x2048_1_0_0_1_n_n.rhsIdx i q 1).val = (i 1).val := by
  unfold DotDims.rhsIdx
  rw [dif_neg (show ¬(1 : Fin Cert.KernelIdeal.S1024x2048.rank) ∈ Cert.KernelIdeal.dot_S512x1024_S1024x2048_S512x2048_1_0_0_1_n_n.rhsBatch by decide), dif_pos (show (1 : Fin Cert.KernelIdeal.S1024x2048.rank) ∈ Cert.KernelIdeal.dot_S512x1024_S1024x2048_S512x2048_1_0_0_1_n_n.rhsNonContracting by decide)]
  rfl

/-- Entry (p, j) of the block product is the sum over the 1024 contracted positions of left(p, k) · right(k, j). -/
theorem kmatmul_apply (a : FVec Ideal Cert.KernelIdeal.S512x1024 .bf16) (w : FVec Ideal Cert.KernelIdeal.S1024x2048 .bf16)
    (p : Fin 512) (j : Fin 2048) :
    matmul Cert.KernelIdeal.dot_S512x1024_S1024x2048_S512x2048_1_0_0_1_n_n none a w (constant Cert.KernelIdeal.S512x2048 .f32 0x00000000#32) (ix2 p j)
      = ∑ k : Fin 1024, a (ix2 p k) * w (ix2 k j) := by
  show FloatOps.matmul Cert.KernelIdeal.dot_S512x1024_S1024x2048_S512x2048_1_0_0_1_n_n none a w (constant Cert.KernelIdeal.S512x2048 .f32 0x00000000#32) (ix2 p j) = _
  rw [Ideal.matmul_constant_zero_apply, ← Equiv.sum_comp (ValueIdx.contrEquiv1 Cert.KernelIdeal.dot_S512x1024_S1024x2048_S512x2048_1_0_0_1_n_n 1024 rfl rfl).symm]
  refine Finset.sum_congr rfl fun k _ => ?_
  have hk := ValueIdx.contrEquiv1_symm_val Cert.KernelIdeal.dot_S512x1024_S1024x2048_S512x2048_1_0_0_1_n_n 1024 rfl rfl k
  have el : Cert.KernelIdeal.dot_S512x1024_S1024x2048_S512x2048_1_0_0_1_n_n.lhsIdx (ix2 p j) ((ValueIdx.contrEquiv1 Cert.KernelIdeal.dot_S512x1024_S1024x2048_S512x2048_1_0_0_1_n_n 1024 rfl rfl).symm k) = ix2 p k := funext fun a => Fin.ext (by
    match a with
    | ⟨0, _⟩ => exact klhs_0 _ _
    | ⟨1, _⟩ => exact (klhs_1 _ _).trans hk)
  have er : Cert.KernelIdeal.dot_S512x1024_S1024x2048_S512x2048_1_0_0_1_n_n.rhsIdx (ix2 p j) ((ValueIdx.contrEquiv1 Cert.KernelIdeal.dot_S512x1024_S1024x2048_S512x2048_1_0_0_1_n_n 1024 rfl rfl).symm k) = ix2 k j := funext fun a => Fin.ext (by
    match a with
    | ⟨0, _⟩ => exact (krhs_0 _ _).trans hk
    | ⟨1, _⟩ => exact krhs_1 _ _)
  rw [el, er]

/-! ## Two matrices of 512 columns side by side, read at an entry -/

/-- Column k of [a | b] is column k of a when k < 512 and column k − 512 of b otherwise, on any number of rows. -/
theorem sideBySide_apply {α : Type} {n : Nat} (a b : (⟨2, ![n, 512]⟩ : Shape).Idx → α)
    (hc : Shape.Concatenates [(⟨2, ![n, 512]⟩ : Shape), ⟨2, ![n, 512]⟩] ⟨2, ![n, 1024]⟩ 1) (r : Fin n) (k : Fin 1024) :
    concatenate (⟨2, ![n, 1024]⟩ : Shape) 1 [⟨⟨2, ![n, 512]⟩, a⟩, ⟨⟨2, ![n, 512]⟩, b⟩] hc (ix2 r k)
      = if h : k.val < 512 then a (ix2 r ⟨k.val, h⟩) else b (ix2 r ⟨k.val - 512, by have := k.isLt; omega⟩) := by
  by_cases h : k.val < 512
  · rw [dif_pos h]
    exact concatenate_pair_apply_left 1 a b hc (ix2 r k) rfl (ix2 r ⟨k.val, h⟩) (fun d => by
      match d with
      | ⟨0, _⟩ => rfl
      | ⟨1, _⟩ => rfl)
  · rw [dif_neg h]
    exact concatenate_pair_apply_right 1 a b hc (ix2 r k) rfl rfl (ix2 r ⟨k.val - 512, by have := k.isLt; omega⟩) (fun d hd => by
      match d with
      | ⟨0, _⟩ => rfl
      | ⟨1, _⟩ => exact absurd rfl hd) (by show (k.val - 512) + 512 = k.val; omega)

end Cert.Lstm

end
-- ==== Proof.CellPre.lean ====
/-
  The gates' pre-activations agree: block row p at grid point t against batch row 512 t + p.

  Given that the kernel's x and h blocks are rows 512 t … of x and h, that its weight operand is the four weight
  matrices side by side and its bias row the four biases end to end, the kernel's
      Σ_k [xb | hb](p, k) · W(k, j) + b2(0, j)
  is the reference's
      Σ_k [x | h](512 t + p, k) · [W_i | W_f | W_o | W_c](k, j) + [b_i, b_f, b_o, b_c](j)
  term by term: for k < 512 both left factors are an entry of x, for k ≥ 512 of h.
-/
import proofs.«154870_j82669530514116_1_alg».proof.Proof.CellGate

noncomputable section

namespace Cert.Lstm

open Idealize.ShloMosaic Idealize.ShloMosaic.ValueIdx
open scoped BigOperators

theorem lidx_eq (r : Fin 16384) (j : Fin 2048) (k : Fin 1024) :
    Cert.ReferenceIdeal.Read.lidx_main_v3 (ix2 r j) k = ix2 r k := funext fun a => by
  match a with
  | ⟨0, _⟩ => rfl
  | ⟨1, _⟩ => rfl
theorem ridx_eq (r : Fin 16384) (j : Fin 2048) (k : Fin 1024) :
    Cert.ReferenceIdeal.Read.ridx_main_v3 (ix2 r j) k = ix2 k j := funext fun a => by
  match a with
  | ⟨0, _⟩ => rfl
  | ⟨1, _⟩ => rfl
theorem bidx_eq (r : Fin 16384) (j : Fin 2048) :
    Cert.ReferenceIdeal.Read.idx_main_v4 (Cert.ReferenceIdeal.Read.idx_main_v5 (ix2 r j)) = ix1 j := funext fun a => by
  match a with
  | ⟨0, _⟩ => rfl

/-- Entry (p, j) of the kernel's block of pre-activations is entry (512 t + p, j) of the reference's. -/
theorem gate_eq (x h : (⟨Cert.ReferenceIdeal.S16384x512, .f32⟩ : BufTy).Contents (Elt Ideal))
    (Wi : (⟨Cert.ReferenceIdeal.S1024x512, .f32⟩ : BufTy).Contents (Elt Ideal)) (bi : (⟨Cert.ReferenceIdeal.S512, .f32⟩ : BufTy).Contents (Elt Ideal))
    (Wf : (⟨Cert.ReferenceIdeal.S1024x512, .f32⟩ : BufTy).Contents (Elt Ideal)) (bf : (⟨Cert.ReferenceIdeal.S512, .f32⟩ : BufTy).Contents (Elt Ideal))
    (Wo : (⟨Cert.ReferenceIdeal.S1024x512, .f32⟩ : BufTy).Contents (Elt Ideal)) (bo : (⟨Cert.ReferenceIdeal.S512, .f32⟩ : BufTy).Contents (Elt Ideal))
    (Wc : (⟨Cert.ReferenceIdeal.S1024x512, .f32⟩ : BufTy).Contents (Elt Ideal)) (bc : (⟨Cert.ReferenceIdeal.S512, .f32⟩ : BufTy).Contents (Elt Ideal))
    (xb hb : Vec Ideal Cert.KernelIdeal.S512x512 .f32) (W : Vec Ideal Cert.KernelIdeal.S1024x2048 .bf16) (b2 : Vec Ideal Cert.KernelIdeal.S1x2048 .f32)
    (t : Fin 32)
    (hx : ∀ (p : Fin 512) (q : Fin 512), xb (ix2 p q) = x (ix2 (rowOf t p) q))
    (hh : ∀ (p : Fin 512) (q : Fin 512), hb (ix2 p q) = h (ix2 (rowOf t p) q))
    (hW : ∀ (k : Fin 1024) (j : Fin 2048), W (ix2 k j) = Cert.ReferenceIdeal.Read.val_main_v1 (F := Ideal) Wi Wf Wo Wc (ix2 k j))
    (hb2 : ∀ j : Fin 2048, b2 (ix2 (0 : Fin 1) j) = Cert.ReferenceIdeal.Read.val_main_v2 (F := Ideal) bi bf bo bc (ix1 j))
    (p : Fin 512) (j : Fin 2048) :
    Cert.KernelIdeal.Gen.k0_pay1 (F := Ideal) xb hb W b2 (ix2 p j)
      = Cert.ReferenceIdeal.Read.val_main_v6 (F := Ideal) x h Wi bi Wf bf Wo bo Wc bc (ix2 (rowOf t p) j) := by
  unfold Cert.KernelIdeal.Gen.k0_pay1
  rw [Cert.ReferenceIdeal.Read.val_main_v6_apply, Cert.ReferenceIdeal.Read.val_main_v3_apply, Cert.ReferenceIdeal.Read.val_main_v5_apply, Cert.ReferenceIdeal.Read.val_main_v4_apply]
  refine congrArg₂ FloatOps.addf ?_ ?_
  · -- the product: the same 1024 terms
    refine (kmatmul_apply _ _ p j).trans ?_
    refine Finset.sum_congr rfl fun k _ => ?_
    rw [lidx_eq, ridx_eq]
    refine congrArg₂ (· * ·) ?_ ?_
    · -- the left factor: an entry of x when k < 512, of h otherwise, on both sides
      unfold Cert.ReferenceIdeal.Read.val_main_v0
      refine (sideBySide_apply (n := 512) _ _ _ p k).trans ?_
      refine Eq.trans ?_ (sideBySide_apply (n := 16384) x h _ (rowOf t p) k).symm
      by_cases hk : k.val < 512
      · rw [dif_pos hk, dif_pos hk]; exact hx p ⟨k.val, hk⟩
      · rw [dif_neg hk, dif_neg hk]; exact hh p ⟨k.val - 512, by have := k.isLt; omega⟩
    · -- the right factor: the joined weights, viewed at their own shape
      rw [shapeCast_self]
      exact hW k j
  · -- the bias: row 0 of the 1 × 2048 view, broadcast down the block
    rw [bidx_eq, shapeCast_self]
    refine (broadcastTo_apply b2 _ (ix2 p j) (ix2 (0 : Fin 1) j) (fun a => ?_)).trans (hb2 j)
    match a with
    | ⟨0, _⟩ => rfl
    | ⟨1, _⟩ => rfl

end Cert.Lstm

end
-- ==== Proof.CellOut.lean ====
/-
  The two results of the cell at an entry: the kernel's block against the reference's whole array.

  With g the pre-activations (2048 columns: input gate, forget gate, output gate, candidate, 512 columns each),
      c'(r, q) = σ(g(r, 512 + q)) · c(r, q) + σ(g(r, q)) · tanh(g(r, 1536 + q)),
      h'(r, q) = σ(g(r, 1024 + q)) · tanh(c'(r, q)).
  The kernel applies one logistic operation; the reference spells σ(z) as 1 / (1 + e^(−z)) with the literal 1.0
  twice. On the extended reals that expression IS the logistic function (at −∞ it is 0, at +∞ it is 1), and the
  host's tanh is the kernel's, so the two sides agree once the pre-activations do.
-/
import proofs.«154870_j82669530514116_1_alg».proof.Proof.CellPre
import Idealize.ShloMosaic.Lib.IdealHost

noncomputable section

namespace Cert.Lstm

open Idealize.ShloMosaic Idealize.ShloMosaic.ValueIdx
open scoped BigOperators

/-- The host's spelling of the sigmoid, with 1.0 as the f32 word 0x3F800000, is the logistic function. -/
theorem sigmoid_host (z : Ideal .f32) :
    FloatOps.hostDivf (FloatOps.ofBits (F := Ideal) .f32 0x3F800000#32)
        (FloatOps.addf (FloatOps.ofBits (F := Ideal) .f32 0x3F800000#32) (FloatOps.hostUnary .exp (FloatOps.hostNegf z)))
      = FloatOps.logistic (F := Ideal) (φ := .f32) z := by
  rw [Ideal.ofBits_def, Ideal.ofBits_one_f32]; rfl

/-- Column `off + q` of the 2048 gate columns. -/
abbrev colOf (off : Nat) (hoff : off + 512 ≤ 2048) (q : Fin 512) : Fin 2048 := ⟨off + q.val, by have := q.isLt; omega⟩

/-- A 512-column slice of the kernel's block of pre-activations, read at an entry. -/
theorem kslice_apply (g : FVec Ideal Cert.KernelIdeal.S512x2048 .f32) (off : Nat) (hoff : off + 512 ≤ 2048)
    (hs : Cert.KernelIdeal.S512x2048.Slices ![0, off] Cert.KernelIdeal.S512x512) (p q : Fin 512) :
    extractStridedSlice Cert.KernelIdeal.S512x512 ![0, off] g hs (ix2 p q) = g (ix2 p (colOf off hoff q)) :=
  extractStridedSlice_apply ![0, off] g hs (ix2 p q) (ix2 p (colOf off hoff q)) (fun a => by
    match a with
    | ⟨0, _⟩ => show p.val = 0 + p.val; omega
    | ⟨1, _⟩ => rfl)

/-! ## The reference's four gates at an entry -/

theorem idx7_eq (r : Fin 16384) (q : Fin 512) : Cert.ReferenceIdeal.Read.idx_main_v7 (ix2 r q) = ix2 r (colOf 0 (by omega) q) := funext fun a => by
  match a with
  | ⟨0, _⟩ => rfl
  | ⟨1, _⟩ => exact Fin.ext (by show q.val = 0 + q.val; omega)
theorem idx8_eq (r : Fin 16384) (q : Fin 512) : Cert.ReferenceIdeal.Read.idx_main_v8 (ix2 r q) = ix2 r (colOf 512 (by omega) q) := funext fun a => by
  match a with
  | ⟨0, _⟩ => rfl
  | ⟨1, _⟩ => rfl
theorem idx9_eq (r : Fin 16384) (q : Fin 512) : Cert.ReferenceIdeal.Read.idx_main_v9 (ix2 r q) = ix2 r (colOf 1024 (by omega) q) := funext fun a => by
  match a with
  | ⟨0, _⟩ => rfl
  | ⟨1, _⟩ => rfl
theorem idx10_eq (r : Fin 16384) (q : Fin 512) : Cert.ReferenceIdeal.Read.idx_main_v10 (ix2 r q) = ix2 r (colOf 1536 (by omega) q) := funext fun a => by
  match a with
  | ⟨0, _⟩ => rfl
  | ⟨1, _⟩ => rfl

/-- The input gate: σ of columns 0 … 511. -/
theorem ref_i (x h : (⟨Cert.ReferenceIdeal.S16384x512, .f32⟩ : BufTy).Contents (Elt Ideal))
    (Wi : (⟨Cert.ReferenceIdeal.S1024x512, .f32⟩ : BufTy).Contents (Elt Ideal)) (bi : (⟨Cert.ReferenceIdeal.S512, .f32⟩ : BufTy).Contents (Elt Ideal))
    (Wf : (⟨Cert.ReferenceIdeal.S1024x512, .f32⟩ : BufTy).Contents (Elt Ideal)) (bf : (⟨Cert.ReferenceIdeal.S512, .f32⟩ : BufTy).Contents (Elt Ideal))
    (Wo : (⟨Cert.ReferenceIdeal.S1024x512, .f32⟩ : BufTy).Contents (Elt Ideal)) (bo : (⟨Cert.ReferenceIdeal.S512, .f32⟩ : BufTy).Contents (Elt Ideal))
    (Wc : (⟨Cert.ReferenceIdeal.S1024x512, .f32⟩ : BufTy).Contents (Elt Ideal)) (bc : (⟨Cert.ReferenceIdeal.S512, .f32⟩ : BufTy).Contents (Elt Ideal)) (i : Cert.ReferenceIdeal.S16384x512.Idx) :
    Cert.ReferenceIdeal.Read.val_main_v16 (F := Ideal) x h Wi bi Wf bf Wo bo Wc bc i
      = FloatOps.logistic (F := Ideal) (φ := .f32) (Cert.ReferenceIdeal.Read.val_main_v6 (F := Ideal) x h Wi bi Wf bf Wo bo Wc bc (Cert.ReferenceIdeal.Read.idx_main_v7 i)) := by
  rw [Cert.ReferenceIdeal.Read.val_main_v16_apply, Cert.ReferenceIdeal.Read.val_main_v15_apply, Cert.ReferenceIdeal.Read.val_main_cst_0_apply, Cert.ReferenceIdeal.Read.val_main_v14_apply, Cert.ReferenceIdeal.Read.val_main_v13_apply, Cert.ReferenceIdeal.Read.val_main_cst_apply, Cert.ReferenceIdeal.Read.val_main_v12_apply, Cert.ReferenceIdeal.Read.val_main_v11_apply, Cert.ReferenceIdeal.Read.val_main_v7_apply]
  exact sigmoid_host _
/-- The forget gate: σ of columns 512 … 1023. -/
theorem ref_f (x h : (⟨Cert.ReferenceIdeal.S16384x512, .f32⟩ : BufTy).Contents (Elt Ideal))
    (Wi : (⟨Cert.ReferenceIdeal.S1024x512, .f32⟩ : BufTy).Contents (Elt Ideal)) (bi : (⟨Cert.ReferenceIdeal.S512, .f32⟩ : BufTy).Contents (Elt Ideal))
    (Wf : (⟨Cert.ReferenceIdeal.S1024x512, .f32⟩ : BufTy).Contents (Elt Ideal)) (bf : (⟨Cert.ReferenceIdeal.S512, .f32⟩ : BufTy).Contents (Elt Ideal))
    (Wo : (⟨Cert.ReferenceIdeal.S1024x512, .f32⟩ : BufTy).Contents (Elt Ideal)) (bo : (⟨Cert.ReferenceIdeal.S512, .f32⟩ : BufTy).Contents (Elt Ideal))
    (Wc : (⟨Cert.ReferenceIdeal.S1024x512, .f32⟩ : BufTy).Contents (Elt Ideal)) (bc : (⟨Cert.ReferenceIdeal.S512, .f32⟩ : BufTy).Contents (Elt Ideal)) (i : Cert.ReferenceIdeal.S16384x512.Idx) :
    Cert.ReferenceIdeal.Read.val_main_v22 (F := Ideal) x h Wi bi Wf bf Wo bo Wc bc i
      = FloatOps.logistic (F := Ideal) (φ := .f32) (Cert.ReferenceIdeal.Read.val_main_v6 (F := Ideal) x h Wi bi Wf bf Wo bo Wc bc (Cert.ReferenceIdeal.Read.idx_main_v8 i)) := by
  rw [Cert.ReferenceIdeal.Read.val_main_v22_apply, Cert.ReferenceIdeal.Read.val_main_v21_apply, Cert.ReferenceIdeal.Read.val_main_cst_2_apply, Cert.ReferenceIdeal.Read.val_main_v20_apply, Cert.ReferenceIdeal.Read.val_main_v19_apply, Cert.ReferenceIdeal.Read.val_main_cst_1_apply, Cert.ReferenceIdeal.Read.val_main_v18_apply, Cert.ReferenceIdeal.Read.val_main_v17_apply, Cert.ReferenceIdeal.Read.val_main_v8_apply]
  exact sigmoid_host _
/-- The output gate: σ of columns 1024 … 1535. -/
theorem ref_o (x h : (⟨Cert.ReferenceIdeal.S16384x512, .f32⟩ : BufTy).Contents (Elt Ideal))
    (Wi : (⟨Cert.ReferenceIdeal.S1024x512, .f32⟩ : BufTy).Contents (Elt Ideal)) (bi : (⟨Cert.ReferenceIdeal.S512, .f32⟩ : BufTy).Contents (Elt Ideal))
    (Wf : (⟨Cert.ReferenceIdeal.S1024x512, .f32⟩ : BufTy).Contents (Elt Ideal)) (bf : (⟨Cert.ReferenceIdeal.S512, .f32⟩ : BufTy).Contents (Elt Ideal))
    (Wo : (⟨Cert.ReferenceIdeal.S1024x512, .f32⟩ : BufTy).Contents (Elt Ideal)) (bo : (⟨Cert.ReferenceIdeal.S512, .f32⟩ : BufTy).Contents (Elt Ideal))
    (Wc : (⟨Cert.ReferenceIdeal.S1024x512, .f32⟩ : BufTy).Contents (Elt Ideal)) (bc : (⟨Cert.ReferenceIdeal.S512, .f32⟩ : BufTy).Contents (Elt Ideal)) (i : Cert.ReferenceIdeal.S16384x512.Idx) :
    Cert.ReferenceIdeal.Read.val_main_v28 (F := Ideal) x h Wi bi Wf bf Wo bo Wc bc i
      = FloatOps.logistic (F := Ideal) (φ := .f32) (Cert.ReferenceIdeal.Read.val_main_v6 (F := Ideal) x h Wi bi Wf bf Wo bo Wc bc (Cert.ReferenceIdeal.Read.idx_main_v9 i)) := by
  rw [Cert.ReferenceIdeal.Read.val_main_v28_apply, Cert.ReferenceIdeal.Read.val_main_v27_apply, Cert.ReferenceIdeal.Read.val_main_cst_4_apply, Cert.ReferenceIdeal.Read.val_main_v26_apply, Cert.ReferenceIdeal.Read.val_main_v25_apply, Cert.ReferenceIdeal.Read.val_main_cst_3_apply, Cert.ReferenceIdeal.Read.val_main_v24_apply, Cert.ReferenceIdeal.Read.val_main_v23_apply, Cert.ReferenceIdeal.Read.val_main_v9_apply]
  exact sigmoid_host _
/-- The candidate: tanh of columns 1536 … 2047. -/
theorem ref_g (x h : (⟨Cert.ReferenceIdeal.S16384x512, .f32⟩ : BufTy).Contents (Elt Ideal))
    (Wi : (⟨Cert.ReferenceIdeal.S1024x512, .f32⟩ : BufTy).Contents (Elt Ideal)) (bi : (⟨Cert.ReferenceIdeal.S512, .f32⟩ : BufTy).Contents (Elt Ideal))
    (Wf : (⟨Cert.ReferenceIdeal.S1024x512, .f32⟩ : BufTy).Contents (Elt Ideal)) (bf : (⟨Cert.ReferenceIdeal.S512, .f32⟩ : BufTy).Contents (Elt Ideal))
    (Wo : (⟨Cert.ReferenceIdeal.S1024x512, .f32⟩ : BufTy).Contents (Elt Ideal)) (bo : (⟨Cert.ReferenceIdeal.S512, .f32⟩ : BufTy).Contents (Elt Ideal))
    (Wc : (⟨Cert.ReferenceIdeal.S1024x512, .f32⟩ : BufTy).Contents (Elt Ideal)) (bc : (⟨Cert.ReferenceIdeal.S512, .f32⟩ : BufTy).Contents (Elt Ideal)) (i : Cert.ReferenceIdeal.S16384x512.Idx) :
    Cert.ReferenceIdeal.Read.val_main_v29 (F := Ideal) x h Wi bi Wf bf Wo bo Wc bc i
      = FloatOps.tanh (F := Ideal) (φ := .f32) (Cert.ReferenceIdeal.Read.val_main_v6 (F := Ideal) x h Wi bi Wf bf Wo bo Wc bc (Cert.ReferenceIdeal.Read.idx_main_v10 i)) := by
  rw [Cert.ReferenceIdeal.Read.val_main_v29_apply, Cert.ReferenceIdeal.Read.val_main_v10_apply]
  rfl

/-! ## New c and new h -/

/-- Entry (p, q) of the kernel's new-c block is entry (512 t + p, q) of the reference's new c. -/
theorem cNext_eq (x h : (⟨Cert.ReferenceIdeal.S16384x512, .f32⟩ : BufTy).Contents (Elt Ideal))
    (Wi : (⟨Cert.ReferenceIdeal.S1024x512, .f32⟩ : BufTy).Contents (Elt Ideal)) (bi : (⟨Cert.ReferenceIdeal.S512, .f32⟩ : BufTy).Contents (Elt Ideal))
    (Wf : (⟨Cert.ReferenceIdeal.S1024x512, .f32⟩ : BufTy).Contents (Elt Ideal)) (bf : (⟨Cert.ReferenceIdeal.S512, .f32⟩ : BufTy).Contents (Elt Ideal))
    (Wo : (⟨Cert.ReferenceIdeal.S1024x512, .f32⟩ : BufTy).Contents (Elt Ideal)) (bo : (⟨Cert.ReferenceIdeal.S512, .f32⟩ : BufTy).Contents (Elt Ideal))
    (Wc : (⟨Cert.ReferenceIdeal.S1024x512, .f32⟩ : BufTy).Contents (Elt Ideal)) (bc : (⟨Cert.ReferenceIdeal.S512, .f32⟩ : BufTy).Contents (Elt Ideal)) (cc : (⟨Cert.ReferenceIdeal.S16384x512, .f32⟩ : BufTy).Contents (Elt Ideal))
    (xb hb : Vec Ideal Cert.KernelIdeal.S512x512 .f32) (W : Vec Ideal Cert.KernelIdeal.S1024x2048 .bf16) (b2 : Vec Ideal Cert.KernelIdeal.S1x2048 .f32) (cb : Vec Ideal Cert.KernelIdeal.S512x512 .f32)
    (t : Fin 32)
    (hx : ∀ (p : Fin 512) (q : Fin 512), xb (ix2 p q) = x (ix2 (rowOf t p) q))
    (hh : ∀ (p : Fin 512) (q : Fin 512), hb (ix2 p q) = h (ix2 (rowOf t p) q))
    (hW : ∀ (k : Fin 1024) (j : Fin 2048), W (ix2 k j) = Cert.ReferenceIdeal.Read.val_main_v1 (F := Ideal) Wi Wf Wo Wc (ix2 k j))
    (hb2 : ∀ j : Fin 2048, b2 (ix2 (0 : Fin 1) j) = Cert.ReferenceIdeal.Read.val_main_v2 (F := Ideal) bi bf bo bc (ix1 j))
    (hc : ∀ (p : Fin 512) (q : Fin 512), cb (ix2 p q) = cc (ix2 (rowOf t p) q))
    (p q : Fin 512) :
    Cert.KernelIdeal.Gen.k0_pay2 (F := Ideal) xb hb W b2 cb (ix2 p q)
      = Cert.ReferenceIdeal.Read.val_main_v32 (F := Ideal) x h cc Wi bi Wf bf Wo bo Wc bc (ix2 (rowOf t p) q) := by
  unfold Cert.KernelIdeal.Gen.k0_pay2
  rw [Cert.ReferenceIdeal.Read.val_main_v32_apply, Cert.ReferenceIdeal.Read.val_main_v30_apply, Cert.ReferenceIdeal.Read.val_main_v31_apply, ref_f, ref_i, ref_g,
    idx7_eq, idx8_eq, idx10_eq]
  refine congrArg₂ FloatOps.addf (congrArg₂ FloatOps.mulf (congrArg FloatOps.logistic ?_) (hc p q))
    (congrArg₂ FloatOps.mulf (congrArg FloatOps.logistic ?_) (congrArg FloatOps.tanh ?_))
  · exact (kslice_apply _ 512 (by omega) _ p q).trans (gate_eq x h Wi bi Wf bf Wo bo Wc bc xb hb W b2 t hx hh hW hb2 p _)
  · exact (kslice_apply _ 0 (by omega) _ p q).trans (gate_eq x h Wi bi Wf bf Wo bo Wc bc xb hb W b2 t hx hh hW hb2 p _)
  · exact (kslice_apply _ 1536 (by omega) _ p q).trans (gate_eq x h Wi bi Wf bf Wo bo Wc bc xb hb W b2 t hx hh hW hb2 p _)

/-- Entry (p, q) of the kernel's new-h block is entry (512 t + p, q) of the reference's new h. -/
theorem hNext_eq (x h : (⟨Cert.ReferenceIdeal.S16384x512, .f32⟩ : BufTy).Contents (Elt Ideal))
    (Wi : (⟨Cert.ReferenceIdeal.S1024x512, .f32⟩ : BufTy).Contents (Elt Ideal)) (bi : (⟨Cert.ReferenceIdeal.S512, .f32⟩ : BufTy).Contents (Elt Ideal))
    (Wf : (⟨Cert.ReferenceIdeal.S1024x512, .f32⟩ : BufTy).Contents (Elt Ideal)) (bf : (⟨Cert.ReferenceIdeal.S512, .f32⟩ : BufTy).Contents (Elt Ideal))
    (Wo : (⟨Cert.ReferenceIdeal.S1024x512, .f32⟩ : BufTy).Contents (Elt Ideal)) (bo : (⟨Cert.ReferenceIdeal.S512, .f32⟩ : BufTy).Contents (Elt Ideal))
    (Wc : (⟨Cert.ReferenceIdeal.S1024x512, .f32⟩ : BufTy).Contents (Elt Ideal)) (bc : (⟨Cert.ReferenceIdeal.S512, .f32⟩ : BufTy).Contents (Elt Ideal)) (cc : (⟨Cert.ReferenceIdeal.S16384x512, .f32⟩ : BufTy).Contents (Elt Ideal))
    (xb hb : Vec Ideal Cert.KernelIdeal.S512x512 .f32) (W : Vec Ideal Cert.KernelIdeal.S1024x2048 .bf16) (b2 : Vec Ideal Cert.KernelIdeal.S1x2048 .f32) (cb : Vec Ideal Cert.KernelIdeal.S512x512 .f32)
    (t : Fin 32)
    (hx : ∀ (p : Fin 512) (q : Fin 512), xb (ix2 p q) = x (ix2 (rowOf t p) q))
    (hh : ∀ (p : Fin 512) (q : Fin 512), hb (ix2 p q) = h (ix2 (rowOf t p) q))
    (hW : ∀ (k : Fin 1024) (j : Fin 2048), W (ix2 k j) = Cert.ReferenceIdeal.Read.val_main_v1 (F := Ideal) Wi Wf Wo Wc (ix2 k j))
    (hb2 : ∀ j : Fin 2048, b2 (ix2 (0 : Fin 1) j) = Cert.ReferenceIdeal.Read.val_main_v2 (F := Ideal) bi bf bo bc (ix1 j))
    (hc : ∀ (p : Fin 512) (q : Fin 512), cb (ix2 p q) = cc (ix2 (rowOf t p) q))
    (p q : Fin 512) :
    Cert.KernelIdeal.Gen.k0_pay3 (F := Ideal) xb hb W b2 cb (ix2 p q)
      = Cert.ReferenceIdeal.Read.val_main_v34 (F := Ideal) x h cc Wi bi Wf bf Wo bo Wc bc (ix2 (rowOf t p) q) := by
  unfold Cert.KernelIdeal.Gen.k0_pay3
  rw [Cert.ReferenceIdeal.Read.val_main_v34_apply, Cert.ReferenceIdeal.Read.val_main_v33_apply, ref_o, idx9_eq]
  refine congrArg₂ FloatOps.mulf (congrArg FloatOps.logistic ?_) ?_
  · exact (kslice_apply _ 1024 (by omega) _ p q).trans (gate_eq x h Wi bi Wf bf Wo bo Wc bc xb hb W b2 t hx hh hW hb2 p _)
  · exact congrArg FloatOps.tanh (cNext_eq x h Wi bi Wf bf Wo bo Wc bc cc xb hb W b2 cb t hx hh hW hb2 hc p q)

end Cert.Lstm

end
-- ==== Proof.KiValue.lean ====
/-
  What the LSTM cell's two result arrays hold after the run, at the extended reals.

  Each grid point writes one 512 × 512 block of new h and one of new c, computed from the x, h, c blocks of the
  same 512 rows and from the joined weights and bias, which the host lines built before the region. Read at an
  entry, each block is the reference's stage for that result at row 512 t + p. Point t's blocks are rows
  512 t … 512 t + 511, so the 32 points cover both arrays, and the arrays end holding the reference's two
  results as functions of the eleven arguments.
-/
import proofs.«154870_j82669530514116_1_alg».proof.Proof.KiFrame
import proofs.«154870_j82669530514116_1_alg».proof.Proof.CellOut
import Idealize.ShloMosaic.Lib.Pipeline.Value
import Idealize.ShloMosaic.Lib.StableHlo.Run

set_option maxRecDepth 16384

noncomputable section

namespace Cert.KernelIdeal.Lstm

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat)

/-! ## The output buffers hold the payloads (any instance) -/

section AnyInstance
variable {F : FTy → Type} [FloatOps F]

theorem hz : (![0, 0] : Fin 2 → Nat) = fun _ => 0 := funext fun a => by fin_cases a <;> rfl

/-- The h-output's buffer after the body: new h of the loaded blocks (its one covering store's value; the loads
    read whole buffers). -/
theorem out5_eq (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S512x512 .f32) (harg6 : arg6.IsWhole) (arg7 : Memref sig .tc .vmem S512x512 .f32) (harg7 : arg7.IsWhole)
    (x0 x1 x2 : Vec F S512x512 .f32) (x3 : Vec F S1024x2048 .bf16) (x4 : Vec F S1x2048 .f32) :
    out0_A_5 c i arg1 harg1 arg2 harg2 arg3 harg3 arg4 harg4 arg5 harg5 arg6 harg6 arg7 harg7 x0 x1 x2 x3 x4 = k0_pay3 x0 x1 x3 x4 x2 := by
  unfold out0_A_5
  rw [View.read_writes_eq_canon _ _ _ (cover0_A_5 c i arg1 harg1 arg2 harg2 arg3 harg3 arg4 harg4 arg5 harg5 arg6 harg6 arg7 harg7 x0 x1 x2 x3 x4)]
  unfold kernelRun0_A
  dsimp only
  rw [View.canon_unit_zero hz]
  simp only [View.readAt_eq_ld, harg1.read_unread, harg2.read_unread, harg3.read_unread, harg4.read_unread, harg5.read_unread,
    View.ld_unit_zero (S := S512x512) hz, View.ld_unit_zero (S := S1024x2048) hz, View.ld_unit_zero (S := S1x2048) hz]
/-- The c-output's buffer after the body: new c of the loaded blocks. -/
theorem out6_eq (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S512x512 .f32) (harg6 : arg6.IsWhole) (arg7 : Memref sig .tc .vmem S512x512 .f32) (harg7 : arg7.IsWhole)
    (x0 x1 x2 : Vec F S512x512 .f32) (x3 : Vec F S1024x2048 .bf16) (x4 : Vec F S1x2048 .f32) :
    out0_A_6 c i arg1 harg1 arg2 harg2 arg3 harg3 arg4 harg4 arg5 harg5 arg6 harg6 arg7 harg7 x0 x1 x2 x3 x4 = k0_pay2 x0 x1 x3 x4 x2 := by
  unfold out0_A_6
  rw [View.read_writes_eq_canon _ _ _ (cover0_A_6 c i arg1 harg1 arg2 harg2 arg3 harg3 arg4 harg4 arg5 harg5 arg6 harg6 arg7 harg7 x0 x1 x2 x3 x4)]
  unfold kernelRun0_A
  dsimp only
  rw [View.canon_unit_zero hz]
  simp only [View.readAt_eq_ld, harg1.read_unread, harg2.read_unread, harg3.read_unread, harg4.read_unread, harg5.read_unread,
    View.ld_unit_zero (S := S512x512) hz, View.ld_unit_zero (S := S1024x2048) hz, View.ld_unit_zero (S := S1x2048) hz]

end AnyInstance

/-! ## At the extended reals -/

variable (m : (ℓ : Loc nD τ sig) → Buf (Elt Ideal) ℓ) (ρ : Dev nD → PrngReg)

/-- The input blocks at point `t`, at their literal types. -/
abbrev xblk (c : Dev nD) (t : Fin cfg0.N) : Vec Ideal S512x512 .f32 := iblk m c 0 t
abbrev hblk (c : Dev nD) (t : Fin cfg0.N) : Vec Ideal S512x512 .f32 := iblk m c 1 t
abbrev cblk (c : Dev nD) (t : Fin cfg0.N) : Vec Ideal S512x512 .f32 := iblk m c 2 t
abbrev wblk (c : Dev nD) (t : Fin cfg0.N) : Vec Ideal S1024x2048 .bf16 := iblk m c 3 t
abbrev bblk (c : Dev nD) (t : Fin cfg0.N) : Vec Ideal S1x2048 .f32 := iblk m c 4 t

/-- A grid point as a number below 32. -/
abbrev pt (t : Fin cfg0.N) : Fin 32 := ⟨t.val, by have h := t.isLt; have hN : cfg0.N = 32 := N_0; omega⟩

theorem hOutAt_eq (c : Dev nD) (t : Fin cfg0.N) :
    hOutAt m c t = k0_pay3 (xblk m c t) (hblk m c t) (wblk m c t) (bblk m c t) (cblk m c t) := by
  unfold hOutAt; exact out5_eq ..
theorem cOutAt_eq (c : Dev nD) (t : Fin cfg0.N) :
    cOutAt m c t = k0_pay2 (xblk m c t) (hblk m c t) (wblk m c t) (bblk m c t) (cblk m c t) := by
  unfold cOutAt; exact out6_eq ..

/-- The printed index maps over the grid: the row-blocked windows (x, h, c, new h, new c) are at block (t, 0), the
    weights and the bias row at block (0, 0). -/
theorem idx_rows : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-! ## The blocks, read at an entry -/

/-- Entry (p, q) of the x block at point `t` is entry (512 t + p, q) of the argument. -/
theorem xblk_apply (c : Dev nD) (t : Fin cfg0.N) (p q : Fin 512) :
    xblk m c t (ix2 p q) = m ((c : Thread nD τ).loc main_arg0) (ix2 (Cert.Lstm.rowOf (pt t) p) q) := by
  unfold xblk iblk
  rw [View.read_apply]
  show V m c main_arg0 _ = _
  rw [V_main_arg0]
  congr 1
  funext a
  apply Fin.ext
  obtain ⟨e00, e01, e10, e11, e20, e21, -⟩ := idx_rows t
  match a with
  | ⟨0, _⟩ => show win0_0.index t (0 : Fin 2) * 512 + 1 * p.val = 512 * t.val + p.val; omega
  | ⟨1, _⟩ => show win0_0.index t (1 : Fin 2) * 512 + 1 * q.val = q.val; omega
/-- Entry (p, q) of the h block at point `t` is entry (512 t + p, q) of the argument. -/
theorem hblk_apply (c : Dev nD) (t : Fin cfg0.N) (p q : Fin 512) :
    hblk m c t (ix2 p q) = m ((c : Thread nD τ).loc main_arg1) (ix2 (Cert.Lstm.rowOf (pt t) p) q) := by
  unfold hblk iblk
  rw [View.read_apply]
  show V m c main_arg1 _ = _
  rw [V_main_arg1]
  congr 1
  funext a
  apply Fin.ext
  obtain ⟨e00, e01, e10, e11, e20, e21, -⟩ := idx_rows t
  match a with
  | ⟨0, _⟩ => show win0_1.index t (0 : Fin 2) * 512 + 1 * p.val = 512 * t.val + p.val; omega
  | ⟨1, _⟩ => show win0_1.index t (1 : Fin 2) * 512 + 1 * q.val = q.val; omega
/-- Entry (p, q) of the c block at point `t` is entry (512 t + p, q) of the argument. -/
theorem cblk_apply (c : Dev nD) (t : Fin cfg0.N) (p q : Fin 512) :
    cblk m c t (ix2 p q) = m ((c : Thread nD τ).loc main_arg2) (ix2 (Cert.Lstm.rowOf (pt t) p) q) := by
  unfold cblk iblk
  rw [View.read_apply]
  show V m c main_arg2 _ = _
  rw [V_main_arg2]
  congr 1
  funext a
  apply Fin.ext
  obtain ⟨e00, e01, e10, e11, e20, e21, -⟩ := idx_rows t
  match a with
  | ⟨0, _⟩ => show win0_2.index t (0 : Fin 2) * 512 + 1 * p.val = 512 * t.val + p.val; omega
  | ⟨1, _⟩ => show win0_2.index t (1 : Fin 2) * 512 + 1 * q.val = q.val; omega

/-- The joined, narrowed weights when the region is entered: the four weight matrices side by side (narrowing
    to bf16 changes no extended real). -/
theorem V_main_v2 (c : Dev nD) : (V m c main_v2 : S1024x2048.Idx → Ideal .bf16)
    = Cert.ReferenceIdeal.Read.val_main_v1 (F := Ideal) (m ((c : Thread nD τ).loc main_arg3)) (m ((c : Thread nD τ).loc main_arg5)) (m ((c : Thread nD τ).loc main_arg7)) (m ((c : Thread nD τ).loc main_arg9)) := by
  dsimp only [V, hostOps0]
  after_results
  rfl
/-- The bias row when the region is entered: the four biases end to end, viewed as one row. -/
theorem V_main_v3 (c : Dev nD) : (V m c main_v3 : S1x2048.Idx → Ideal .f32)
    = shapeCast S1x2048 (Cert.ReferenceIdeal.Read.val_main_v2 (F := Ideal) (m ((c : Thread nD τ).loc main_arg4)) (m ((c : Thread nD τ).loc main_arg6)) (m ((c : Thread nD τ).loc main_arg8)) (m ((c : Thread nD τ).loc main_arg10))) shapeCasts_S2048_S1x2048 := by
  dsimp only [V, hostOps0]
  after_results
  rfl

/-- The weight block is the whole joined matrix, at every point. -/
theorem wblk_apply (c : Dev nD) (t : Fin cfg0.N) (k : Fin 1024) (j : Fin 2048) :
    wblk m c t (ix2 k j) = Cert.ReferenceIdeal.Read.val_main_v1 (F := Ideal) (m ((c : Thread nD τ).loc main_arg3)) (m ((c : Thread nD τ).loc main_arg5)) (m ((c : Thread nD τ).loc main_arg7)) (m ((c : Thread nD τ).loc main_arg9)) (ix2 k j) := by
  unfold wblk iblk
  rw [View.read_apply]
  show V m c main_v2 _ = _
  rw [V_main_v2]
  congr 1
  funext a
  apply Fin.ext
  obtain ⟨-, -, -, -, -, -, e30, e31, -⟩ := idx_rows t
  match a with
  | ⟨0, _⟩ => show win0_3.index t (0 : Fin 2) * 1024 + 1 * k.val = k.val; omega
  | ⟨1, _⟩ => show win0_3.index t (1 : Fin 2) * 2048 + 1 * j.val = j.val; omega

/-- The bias block is the whole row, at every point: entry (0, j) is entry j of the joined bias. -/
theorem bblk_apply (c : Dev nD) (t : Fin cfg0.N) (j : Fin 2048) :
    bblk m c t (ix2 (0 : Fin 1) j) = Cert.ReferenceIdeal.Read.val_main_v2 (F := Ideal) (m ((c : Thread nD τ).loc main_arg4)) (m ((c : Thread nD τ).loc main_arg6)) (m ((c : Thread nD τ).loc main_arg8)) (m ((c : Thread nD τ).loc main_arg10)) (ix1 j) := by
  unfold bblk iblk
  rw [View.read_apply]
  have he : ((cfg0.win 4).blk t).view.emb (ix2 (0 : Fin 1) j) = ix2 (0 : Fin 1) j := by
    funext a
    apply Fin.ext
    obtain ⟨-, -, -, -, -, -, -, -, e40, e41, -⟩ := idx_rows t
    match a with
    | ⟨0, _⟩ => show win0_4.index t (0 : Fin 2) * 1 + 1 * 0 = 0; omega
    | ⟨1, _⟩ => show win0_4.index t (1 : Fin 2) * 2048 + 1 * j.val = j.val; omega
  rw [he]
  show V m c main_v3 _ = _
  rw [V_main_v3]
  refine shapeCast_apply _ _ (ix2 (0 : Fin 1) j) (ix1 j) ?_
  rw [Shape.rowMajor_val_one, Shape.rowMajor_val_two]
  show j.val = 0 * 2048 + j.val
  omega

/-! ## The two results as whole arrays -/

/-- New h as the reference computes it from the eleven arguments. -/
abbrev hNew (c : Dev nD) : Buf (Elt Ideal) ((c : Thread nD τ).loc main_v4_0) :=
  Cert.ReferenceIdeal.Read.val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
/-- New c likewise. -/
abbrev cNew (c : Dev nD) : Buf (Elt Ideal) ((c : Thread nD τ).loc main_v4_1) :=
  Cert.ReferenceIdeal.Read.val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-- What point `t` writes back to the h result is rows 512 t … 512 t + 511 of the reference's h. -/
theorem flushed5_eq (c : Dev nD) (t : Fin cfg0.N) :
    (dats m 0 c).flushed 5 t = ((cfg0.win 5).blk t).view.read (Elt Ideal) (hNew m c) := by
  show (cfg0.win 5).cut (grid0.coords t) ((dats m 0 c).after 5 t) = _
  rw [after0_5]
  funext y
  obtain ⟨p, q, rfl⟩ : ∃ (p q : Fin 512), y = ix2 p q := ⟨y 0, y 1, eq_ix2 (n0 := 512) (n1 := 512) y⟩
  rw [View.read_apply]
  have he : ((cfg0.win 5).blk t).view.emb (ix2 p q) = ix2 (Cert.Lstm.rowOf (pt t) p) q := by
    funext a
    apply Fin.ext
    obtain ⟨-, -, -, -, -, -, -, -, -, -, e50, e51, e60, e61⟩ := idx_rows t
    match a with
    | ⟨0, _⟩ => show win0_5.index t (0 : Fin 2) * 512 + 1 * p.val = 512 * t.val + p.val; omega
    | ⟨1, _⟩ => show win0_5.index t (1 : Fin 2) * 512 + 1 * q.val = q.val; omega
  rw [he]
  show hOutAt m c t (ix2 p q) = _
  rw [hOutAt_eq]
  exact Cert.Lstm.hNext_eq (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg2))
    (xblk m c t) (hblk m c t) (wblk m c t) (bblk m c t) (cblk m c t) (pt t)
    (xblk_apply m c t) (hblk_apply m c t) (wblk_apply m c t) (bblk_apply m c t) (cblk_apply m c t) p q
/-- What point `t` writes back to the c result is rows 512 t … 512 t + 511 of the reference's c. -/
theorem flushed6_eq (c : Dev nD) (t : Fin cfg0.N) :
    (dats m 0 c).flushed 6 t = ((cfg0.win 6).blk t).view.read (Elt Ideal) (cNew m c) := by
  show (cfg0.win 6).cut (grid0.coords t) ((dats m 0 c).after 6 t) = _
  rw [after0_6]
  funext y
  obtain ⟨p, q, rfl⟩ : ∃ (p q : Fin 512), y = ix2 p q := ⟨y 0, y 1, eq_ix2 (n0 := 512) (n1 := 512) y⟩
  rw [View.read_apply]
  have he : ((cfg0.win 6).blk t).view.emb (ix2 p q) = ix2 (Cert.Lstm.rowOf (pt t) p) q := by
    funext a
    apply Fin.ext
    obtain ⟨-, -, -, -, -, -, -, -, -, -, e50, e51, e60, e61⟩ := idx_rows t
    match a with
    | ⟨0, _⟩ => show win0_6.index t (0 : Fin 2) * 512 + 1 * p.val = 512 * t.val + p.val; omega
    | ⟨1, _⟩ => show win0_6.index t (1 : Fin 2) * 512 + 1 * q.val = q.val; omega
  rw [he]
  show cOutAt m c t (ix2 p q) = _
  rw [cOutAt_eq]
  exact Cert.Lstm.cNext_eq (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg2))
    (xblk m c t) (hblk m c t) (wblk m c t) (bblk m c t) (cblk m c t) (pt t)
    (xblk_apply m c t) (hblk_apply m c t) (wblk_apply m c t) (bblk_apply m c t) (cblk_apply m c t) p q

theorem mem_blk5 (t : Fin cfg0.N) (i : S16384x512.Idx) :
    i ∈ ((cfg0.win 5).blk t).view.set ↔ ∀ a : Fin 2, win0_5.index t a * S512x512.size a ≤ (i a).val ∧ (i a).val < win0_5.index t a * S512x512.size a + S512x512.size a := by
  show i ∈ ((View.whole main_v4_0).slice (win0_5.rect t)).set ↔ _
  rw [View.set_slice_whole, Rect.mem_set_unit]
  exact Iff.rfl

/-- Row r lies in the block of point r / 512, and every point writes back: the 32 blocks cover the array. -/
theorem final5 (c : Dev nD) : (dats m 0 c).arrAt 5 cfg0.N = hNew m c :=
  (dats m 0 c).arrAt_eq_of_cover 5 (hNew m c) (fun t _ => flushed5_eq m c t) fun i => by
    have hi0 : (i 0).val < 16384 := (i 0).isLt
    have hi1 : (i 1).val < 512 := (i 1).isLt
    have hN : cfg0.N = 32 := N_0
    refine ⟨⟨(i 0).val / 512, by omega⟩, flush0_5 _, ?_⟩
    rw [mem_blk5]
    obtain ⟨-, -, -, -, -, -, -, -, -, -, e50, e51, e60, e61⟩ := idx_rows ⟨(i 0).val / 512, by omega⟩
    intro a
    match a with
    | ⟨0, _⟩ =>
      show win0_5.index ⟨(i 0).val / 512, _⟩ (0 : Fin 2) * 512 ≤ (i 0).val ∧ (i 0).val < win0_5.index ⟨(i 0).val / 512, _⟩ (0 : Fin 2) * 512 + 512
      rw [e50]; show (i 0).val / 512 * 512 ≤ (i 0).val ∧ (i 0).val < (i 0).val / 512 * 512 + 512; omega
    | ⟨1, _⟩ =>
      show win0_5.index ⟨(i 0).val / 512, _⟩ (1 : Fin 2) * 512 ≤ (i 1).val ∧ (i 1).val < win0_5.index ⟨(i 0).val / 512, _⟩ (1 : Fin 2) * 512 + 512
      rw [e51]; omega

theorem mem_blk6 (t : Fin cfg0.N) (i : S16384x512.Idx) :
    i ∈ ((cfg0.win 6).blk t).view.set ↔ ∀ a : Fin 2, win0_6.index t a * S512x512.size a ≤ (i a).val ∧ (i a).val < win0_6.index t a * S512x512.size a + S512x512.size a := by
  show i ∈ ((View.whole main_v4_1).slice (win0_6.rect t)).set ↔ _
  rw [View.set_slice_whole, Rect.mem_set_unit]
  exact Iff.rfl

/-- Row r lies in the block of point r / 512, and every point writes back: the 32 blocks cover the array. -/
theorem final6 (c : Dev nD) : (dats m 0 c).arrAt 6 cfg0.N = cNew m c :=
  (dats m 0 c).arrAt_eq_of_cover 6 (cNew m c) (fun t _ => flushed6_eq m c t) fun i => by
    have hi0 : (i 0).val < 16384 := (i 0).isLt
    have hi1 : (i 1).val < 512 := (i 1).isLt
    have hN : cfg0.N = 32 := N_0
    refine ⟨⟨(i 0).val / 512, by omega⟩, flush0_6 _, ?_⟩
    rw [mem_blk6]
    obtain ⟨-, -, -, -, -, -, -, -, -, -, e50, e51, e60, e61⟩ := idx_rows ⟨(i 0).val / 512, by omega⟩
    intro a
    match a with
    | ⟨0, _⟩ =>
      show win0_6.index ⟨(i 0).val / 512, _⟩ (0 : Fin 2) * 512 ≤ (i 0).val ∧ (i 0).val < win0_6.index ⟨(i 0).val / 512, _⟩ (0 : Fin 2) * 512 + 512
      rw [e60]; show (i 0).val / 512 * 512 ≤ (i 0).val ∧ (i 0).val < (i 0).val / 512 * 512 + 512; omega
    | ⟨1, _⟩ =>
      show win0_6.index ⟨(i 0).val / 512, _⟩ (1 : Fin 2) * 512 ≤ (i 1).val ∧ (i 1).val < win0_6.index ⟨(i 0).val / 512, _⟩ (1 : Fin 2) * 512 + 512
      rw [e61]; omega

/-! ## The run, read -/

/-- Every weakly fair execution of @main ends with the two result arrays at the reference's new h and new c of
    the launch contents of the arguments, and the arguments as launched. -/
theorem run : θ_run defs (onTc (τ := τ) (main (F := Ideal))) ⟨m, fun _ => 0, ρ⟩ fun r => ∀ c : Dev nD,
      r.2.mem ((c.tc : Thread nD τ).loc main_v4_0) = hNew m c
      ∧ r.2.mem ((c.tc : Thread nD τ).loc main_v4_1) = cNew m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨((h c).1 5).trans (final5 m c), ((h c).1 6).trans (final6 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩)
    (run_main m ρ)

end Cert.KernelIdeal.Lstm

end
-- ==== Proof.lean ====
/-
  The LSTM cell: the Pallas kernel against its jnp reference.

  One fused step of an LSTM cell on a batch of 16384 rows with 512 inputs and 512 hidden units. Both programs
  form the 2048 gate pre-activations g = [x | h] · [W_i | W_f | W_o | W_c] + [b_i, b_f, b_o, b_c] and then
      c' = σ(g_f) · c + σ(g_i) · tanh(g_c),     h' = σ(g_o) · tanh(c').
  The kernel works on 32 blocks of 512 rows, takes the product on the matrix unit with bf16 operands and applies
  one logistic operation; the reference works on the whole batch and spells σ(z) as 1 / (1 + e^(−z)). Over the
  extended reals these are the same two functions of the eleven arguments, with no condition on the inputs:
  narrowing to bf16 is the identity there, the contraction is the same sum, and 1 / (1 + e^(−z)) is the logistic
  function at every extended real.

  The three frames: each kernel program runs its four host lines and then its pipelined region to the end and
  leaves its arguments as launched (the hand frame modules); the reference is a straight line of host
  operations (its generated run). The idealization rewrote nothing, so `preserves` has nothing to state.
-/
import proofs.«154870_j82669530514116_1_alg».proof.Defs
import proofs.«154870_j82669530514116_1_alg».proof.Proof.KbFrame
import proofs.«154870_j82669530514116_1_alg».proof.Proof.KiValue
import proofs.«154870_j82669530514116_1_alg».proof.Proof.Gen.ReferenceIdeal
import proofs.«154870_j82669530514116_1_alg».proof.Proof.Gen.ReferenceIdeal.Run
import proofs.«154870_j82669530514116_1_alg».proof.Proof.Gen.ReferenceIdeal.Read
import proofs.«154870_j82669530514116_1_alg».proof.Proof.Gen.Pre_finite_inputs
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Lstm.frame m ρ

theorem frame_ki : Cert.frame_KernelIdeal := fun m ρ _ => Cert.KernelIdeal.Lstm.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with new h and new c at the reference's two stages of the arguments: the kernel by its
    blocks covering the arrays, the reference by its run, from memories that agree on the arguments. -/
theorem algebraic : Cert.algebraic_KernelIdeal_ReferenceIdeal := by
  intro m ρ m' ρ' _ hagree
  refine ⟨fun c => Cert.KernelIdeal.Lstm.hNew m c, fun c => Cert.KernelIdeal.Lstm.cNew m c, Cert.KernelIdeal.Lstm.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10⟩ := hagree c
    rw [Cert.ReferenceIdeal.Read.val_main_v34_eq, a0, a1, a2, a3, a4, a5, a6, a7, a8, a9, a10]
  · obtain ⟨a0, a1, a2, a3, a4, a5, a6, a7, a8, a9, a10⟩ := hagree c
    refine (Cert.ReferenceIdeal.Read.val_main_v32_eq _ _ _ _ _ _ _ _ _ _ _).trans ?_
    rw [a0, a1, a2, a3, a4, a5, a6, a7, a8, a9, a10]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
